-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x1024 : Shape := ⟨3, ![512, 64, 1024]⟩
abbrev S512x64 : Shape := ⟨2, ![512, 64]⟩
abbrev S512x1024 : Shape := ⟨2, ![512, 1024]⟩
abbrev S512x128x4 : Shape := ⟨3, ![512, 128, 4]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S512x1024 : S_.BroadcastsInDim S512x1024 (![] : Fin 0 → Fin S512x1024.rank)
  reducesTo_S512x1024_S_d0_1 : S512x1024.ReducesTo [0, 1] S_
  bcast_S_S512x128x4 : S_.BroadcastsInDim S512x128x4 (![] : Fin 0 → Fin S512x128x4.rank)
  reducesTo_S512x128x4_S_d0_1_2 : S512x128x4.ReducesTo [0, 1, 2] S_

variable [Facts]

def fn_part1 {F : FTy → Type} [FloatOps F] (main_arg4 : IVec S512x128x4 32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_c_6 : IVec S_ 32 := constantI S_ 32 0#32
  let main_v19 : IVec S512x128x4 32 := broadcastInDim S512x128x4 ![] bcast_S_S512x128x4 main_c_6
  let main_v20 : IVec S512x128x4 1 := cmpi .sge main_arg4 main_v19
  let main_c_7 : IVec S_ 32 := constantI S_ 32 1024#32
  let main_v21 : IVec S512x128x4 32 := broadcastInDim S512x128x4 ![] bcast_S_S512x128x4 main_c_7
  let main_v22 : IVec S512x128x4 1 := cmpi .slt main_arg4 main_v21
  let main_v23 : IVec S512x128x4 1 := andi main_v20 main_v22
  let main_c_8 : IVec S_ 1 := constantI S_ 1 1#1
  let main_v24 : IVec S_ 1 := (fun x v => Host.reduce IntOp.andi x v reducesTo_S512x128x4_S_d0_1_2 h_S_) main_v23 main_c_8
  let main_v25 : IVec S_ 1 := andi main_v18 main_v24
  main_v25

def fn {F : FTy → Type} [FloatOps F] (main_arg0 : FVec F S512x64x1024 .f32) (main_arg1 : FVec F S512x64 .f32) (main_arg2 : FVec F S512x1024 .f32) (main_arg3 : FVec F S512x1024 .f32) (main_arg4 : IVec S512x128x4 32) : IVec S_ 1 :=
  let main_v0 : FVec F S512x64x1024 .f32 := Host.absf main_arg0
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_v13 main_v16
-- ==== Kernel.lean ====
abbrev S512x64x1024 : Shape := ⟨3, ![512, 64, 1024]⟩
abbrev S512x64 : Shape := ⟨2, ![512, 64]⟩
abbrev S512x1024 : Shape := ⟨2, ![512, 1024]⟩
abbrev S512x128x4 : Shape := ⟨3, ![512, 128, 4]⟩
abbrev S512x4x128 : Shape := ⟨3, ![512, 4, 128]⟩
abbrev S512x128x1024 : Shape := ⟨3, ![512, 128, 1024]⟩
abbrev S16x4x128 : Shape := ⟨3, ![16, 4, 128]⟩
abbrev S16x1024 : Shape := ⟨2, ![16, 1024]⟩
abbrev S16x128x1024 : Shape := ⟨3, ![16, 128, 1024]⟩
abbrev S1x1x1024 : Shape := ⟨3, ![1, 1, 1024]⟩
abbrev S16x1x128 : Shape := ⟨3, ![16, 1, 128]⟩
abbrev S16x128 : Shape := ⟨2, ![16, 128]⟩
abbrev S16x128x1 : Shape := ⟨3, ![16, 128, 1]⟩
abbrev S16x1x1024 : Shape := ⟨3, ![16, 1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S512x64x1024, .f32⟩
  | .hbm, ⟨1, _⟩ => ⟨S512x64, .f32⟩
  | .hbm, ⟨2, _⟩ => ⟨S512x1024, .f32⟩
  | .hbm, ⟨3, _⟩ => ⟨S512x1024, .f32⟩
  | .hbm, ⟨4, _⟩ => ⟨S512x128x4, .i32⟩
  | .hbm, ⟨5, _⟩ => ⟨S512x4x128, .i32⟩
  | .hbm, ⟨6, _⟩ => ⟨S512x128x1024, .f32⟩
  | .local _ .vmem, ⟨0, _⟩ => ⟨S16x4x128, .i32⟩
  | .local _ .vmem, ⟨1, _⟩ => ⟨S16x4x128, .i32⟩
  | .local _ .vmem, ⟨2, _⟩ => ⟨S16x1024, .f32⟩
  | .local _ .vmem, ⟨3, _⟩ => ⟨S16x1024, .f32⟩
  | .local _ .vmem, ⟨4, _⟩ => ⟨S16x128x1024, .f32⟩
  | .local _ .vmem, ⟨5, _⟩ => ⟨S16x128x1024, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x128x4_S512x4x128_0_2_1 : S512x128x4.Transposes [0, 2, 1] S512x4x128
  iota_S1x1x1024_d2_w32 : S1x1x1024.Iotas .tc 32 [2]
  inb_S16x4x128_S16x1x128_0_0_0 : ∀ a, (![0, 0, 0] : Fin 3 → Nat) a + S16x1x128.size a ≤ S16x4x128.size a
  h_S16x1x128 : 0 < S16x1x128.numel
  shapeCasts_S16x1x128_S16x128 : S16x1x128.ShapeCasts S16x128
  shapeCasts_S16x128_S16x128x1 : S16x128.ShapeCasts S16x128x1
  broadcasts_S16x128x1_S16x128x1024 : S16x128x1.Broadcasts S16x128x1024
  broadcasts_S1x1x1024_S16x128x1024 : S1x1x1024.Broadcasts S16x128x1024
  inb_S16x4x128_S16x1x128_0_1_0 : ∀ a, (![0, 1, 0] : Fin 3 → Nat) a + S16x1x128.size a ≤ S16x4x128.size a
  inb_S16x4x128_S16x1x128_0_2_0 : ∀ a, (![0, 2, 0] : Fin 3 → Nat) a + S16x1x128.size a ≤ S16x4x128.size a
  inb_S16x4x128_S16x1x128_0_3_0 : ∀ a, (![0, 3, 0] : Fin 3 → Nat) a + S16x1x128.size a ≤ S16x4x128.size a
  inb_S16x1024_S16x1024_0_0 : ∀ a, (![0, 0] : Fin 2 → Nat) a + S16x1024.size a ≤ S16x1024.size a
  h_S16x1024 : 0 < S16x1024.numel
  shapeCasts_S16x1024_S16x1x1024 : S16x1024.ShapeCasts S16x1x1024
  shapeCasts_S16x1x1024_S16x1x1024 : S16x1x1024.ShapeCasts S16x1x1024
  broadcasts_S16x1x1024_S16x128x1024 : S16x1x1024.Broadcasts S16x128x1024
  inb_S16x128x1024_S16x128x1024_0_0_0 : ∀ a, (![0, 0, 0] : Fin 3 → Nat) a + S16x128x1024.size a ≤ S16x128x1024.size a
  h_S16x128x1024 : 0 < S16x128x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x128.size a ≤ S512x4x128.size a
  hwx0_0 : ∀ i : grid0.Coords, EltTy.bits .i32 = 32 ∨ (Rect.block (s := S512x4x128) S16x4x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S512x1024.size a
  hwx0_1 : ∀ i : grid0.Coords, EltTy.bits .f32 = 32 ∨ (Rect.block (s := S512x1024) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x1024.size a ≤ S512x128x1024.size a
  hwx0_2 : ∀ i : grid0.Coords, EltTy.bits .f32 = 32 ∨ (Rect.block (s := S512x128x1024) S16x128x1024.size (cc0_transform_2 i) (hinb0_2 i)).WholeWords (EltTy.packing .f32)

variable [Facts₀]

abbrev win0_0 : Pipeline.Window sig grid0 :=
  Pipeline.Window.ofSpec (Memref.whole main_v0) S16x4x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x64x1024 : Shape := ⟨3, ![512, 64, 1024]⟩
abbrev S512x64 : Shape := ⟨2, ![512, 64]⟩
abbrev S512x1024 : Shape := ⟨2, ![512, 1024]⟩
abbrev S512x128x4 : Shape := ⟨3, ![512, 128, 4]⟩
abbrev S512 : Shape := ⟨1, ![512]⟩
abbrev S512x1x1 : Shape := ⟨3, ![512, 1, 1]⟩
abbrev S128 : Shape := ⟨1, ![128]⟩
abbrev S1x128x1 : Shape := ⟨3, ![1, 128, 1]⟩
abbrev S_ : Shape := ⟨0, ![]⟩
abbrev S512x128x1024 : Shape := ⟨3, ![512, 128, 1024]⟩
abbrev S512x128x4x1 : Shape := ⟨4, ![512, 128, 4, 1]⟩
abbrev S512x128x4x3 : Shape := ⟨4, ![512, 128, 4, 3]⟩
abbrev S512x1x1024 : Shape := ⟨3, ![512, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S512x64x1024, .f32⟩
  | .hbm, ⟨1, _⟩ => ⟨S512x64, .f32⟩
  | .hbm, ⟨2, _⟩ => ⟨S512x1024, .f32⟩
  | .hbm, ⟨3, _⟩ => ⟨S512x1024, .f32⟩
  | .hbm, ⟨4, _⟩ => ⟨S512x128x4, .i32⟩
  | .hbm, ⟨5, _⟩ => ⟨S512, .i32⟩
  | .hbm, ⟨6, _⟩ => ⟨S512x1x1, .i32⟩
  | .hbm, ⟨7, _⟩ => ⟨S128, .i32⟩
  | .hbm, ⟨8, _⟩ => ⟨S1x128x1, .i32⟩
  | .hbm, ⟨9, _⟩ => ⟨S_, .f32⟩
  | .hbm, ⟨10, _⟩ => ⟨S512x128x1024, .f32⟩
  | .hbm, ⟨11, _⟩ => ⟨S_, .i32⟩
  | .hbm, ⟨12, _⟩ => ⟨S512x1x1, .i32⟩
  | .hbm, ⟨13, _⟩ => ⟨S512x1x1, .i1⟩
  | .hbm, ⟨14, _⟩ => ⟨S_, .i32⟩
  | .hbm, ⟨15, _⟩ => ⟨S512x1x1, .i32⟩
  | .hbm, ⟨16, _⟩ => ⟨S512x1x1, .i32⟩
  | .hbm, ⟨17, _⟩ => ⟨S512x1x1, .i32⟩
  | .hbm, ⟨18, _⟩ => ⟨S_, .i32⟩
  | .hbm, ⟨19, _⟩ => ⟨S1x128x1, .i32⟩
  | .hbm, ⟨20, _⟩ => ⟨S1x128x1, .i1⟩
  | .hbm, ⟨21, _⟩ => ⟨S_, .i32⟩
  | .hbm, ⟨22, _⟩ => ⟨S1x128x1, .i32⟩
  | .hbm, ⟨23, _⟩ => ⟨S1x128x1, .i32⟩
  | .hbm, ⟨24, _⟩ => ⟨S1x128x1, .i32⟩
  | .hbm, ⟨25, _⟩ => ⟨S_, .i32⟩
  | .hbm, ⟨26, _⟩ => ⟨S512x128x4, .i32⟩
  | .hbm, ⟨27, _⟩ => ⟨S512x128x4, .i1⟩
  | .hbm, ⟨28, _⟩ => ⟨S_, .i32⟩
  | .hbm, ⟨29, _⟩ => ⟨S512x128x4, .i32⟩
  | .hbm, ⟨30, _⟩ => ⟨S512x128x4, .i32⟩
  | .hbm, ⟨31, _⟩ => ⟨S512x128x4, .i32⟩
  | .hbm, ⟨32, _⟩ => ⟨S512x128x4, .i32⟩
  | .hbm, ⟨33, _⟩ => ⟨S512x128x4, .i32⟩
  | .hbm, ⟨34, _⟩ => ⟨S512x128x4x1, .i32⟩
  | .hbm, ⟨35, _⟩ => ⟨S512x128x4x1, .i32⟩
  | .hbm, ⟨36, _⟩ => ⟨S512x128x4x1, .i32⟩
  | .hbm, ⟨37, _⟩ => ⟨S512x128x4x3, .i32⟩
  | .hbm, ⟨38, _⟩ => ⟨S_, .f32⟩
  | .hbm, ⟨39, _⟩ => ⟨S512x128x4, .f32⟩
  | .hbm, ⟨40, _⟩ => ⟨S512x128x1024, .f32⟩
  | .hbm, ⟨41, _⟩ => ⟨S512x1x1024, .f32⟩
  | .hbm, ⟨42, _⟩ => ⟨S_, .f32⟩
  | .hbm, ⟨43, _⟩ => ⟨S512x1x1024, .f32⟩
  | .hbm, ⟨44, _⟩ => ⟨S512x1x1024, .f32⟩
  | .hbm, ⟨45, _⟩ => ⟨S_, .f32⟩
  | .hbm, ⟨46, _⟩ => ⟨S512x1x1024, .f32⟩
  | .hbm, ⟨47, _⟩ => ⟨S512x1x1024, .f32⟩
  | .hbm, ⟨48, _⟩ => ⟨S512x128x1024, .f32⟩
  | .hbm, ⟨49, _⟩ => ⟨S512x128x1024, .f32⟩
  | .hbm, ⟨50, _⟩ => ⟨S512x128x1024, .f32⟩
  | .hbm, ⟨51, _⟩ => ⟨S512x128x1024, .f32⟩
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  bcast_S512_S512x1x1_0 : S512.BroadcastsInDim S512x1x1 (![0] : Fin 1 → Fin S512x1x1.rank)
  bcast_S128_S1x128x1_1 : S128.BroadcastsInDim S1x128x1 (![1] : Fin 1 → Fin S1x128x1.rank)
  bcast_S_S512x128x1024 : S_.BroadcastsInDim S512x128x1024 (![] : Fin 0 → Fin S512x128x1024.rank)
  bcast_S_S512x1x1 : S_.BroadcastsInDim S512x1x1 (![] : Fin 0 → Fin S512x1x1.rank)
  bcast_S_S1x128x1 : S_.BroadcastsInDim S1x128x1 (![] : Fin 0 → Fin S1x128x1.rank)
  bcast_S_S512x128x4 : S_.BroadcastsInDim S512x128x4 (![] : Fin 0 → Fin S512x128x4.rank)
  bcast_S512x1x1_S512x128x4_0_1_2 : S512x1x1.BroadcastsInDim S512x128x4 (![0, 1, 2] : Fin 3 → Fin S512x128x4.rank)
  bcast_S1x128x1_S512x128x4_0_1_2 : S1x128x1.BroadcastsInDim S512x128x4 (![0, 1, 2] : Fin 3 → Fin S512x128x4.rank)
  bcast_S512x128x4_S512x128x4x1_0_1_2 : S512x128x4.BroadcastsInDim S512x128x4x1 (![0, 1, 2] : Fin 3 → Fin S512x128x4x1.rank)
  concatenates_S512x128x4x1_S512x128x4x1_S512x128x4x1_S512x128x4x3_d3 : Shape.Concatenates [S512x128x4x1, S512x128x4x1, S512x128x4x1] S512x128x4x3 3
  bcast_S512x1024_S512x1x1024_0_2 : S512x1024.BroadcastsInDim S512x1x1024 (![0, 2] : Fin 2 → Fin S512x1x1024.rank)
  bcast_S_S512x1x1024 : S_.BroadcastsInDim S512x1x1024 (![] : Fin 0 → Fin S512x1x1024.rank)
  bcast_S512x1x1024_S512x128x1024_0_1_2 : S512x1x1024.BroadcastsInDim S512x128x1024 (![0, 1, 2] : Fin 3 → Fin S512x128x1024.rank)
  scatter_S512x128x1024_S512x128x4x3_S512x128x4_n_012_012_3_wf : ScatterDims.WF S512x128x1024 S512x128x4x3 S512x128x4 [] [0, 1, 2] [0, 1, 2] 3

variable [Facts₀]

def scatter_S512x128x1024_S512x128x4x3_S512x128x4_n_012_012_3 : ScatterDims S512x128x1024 S512x128x4x3 S512x128x4 where
  updateWindowDims := []
  insertedWindowDims := [0, 1, 2]
  scatterDimsToOperandDims := [0, 1, 2]
  indexVectorDim := 3
  wf := scatter_S512x128x1024_S512x128x4x3_S512x128x4_n_012_012_3_wf

class Facts : Prop extends Facts₀ where

variable [Facts]
-- ==== Proof.Spec.lean ====
/-
  The function both programs compute, and the two laws of real numbers that join them.

  `y` is a table of 512 rows of 1024 numbers; `idx` lists, for each row `b` and each of 128 samples `s`,
  four positions `idx[b, s, 0..3]`. Say position `v` is LISTED at `(b, s)` when one of the four words is `v`.
  The result at `(b, s, v)` is `1 - y[b, v]` where `v` is listed at `(b, s)` and `y[b, v]` where it is not.

  One program selects between the two values directly. The other builds the 0/1 indicator `mag` of "listed" and
  returns `y + (1 - 2 y) * mag`: for a real `y` that is `y + (1 - 2 y) = 1 - y` where `mag = 1` and
  `y + 0 = y` where `mag = 0`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Flip

/-- The pattern of `1.0` denotes the real one. -/
theorem one_f32 : Ideal.ofBits .f32 0x3F800000#32 = ((1 : ℝ) : EReal) := by
  simp [Ideal.ofBits, Ideal.ieee, -EReal.coe_mul]; norm_num

/-- The pattern of `2.0` denotes the real two. -/
theorem two_f32 : Ideal.ofBits .f32 0x40000000#32 = ((2 : ℝ) : EReal) := by
  simp [Ideal.ofBits, Ideal.ieee, -EReal.coe_mul]; norm_num

/-- Position `v` is one of the four positions listed for sample `s` of row `b`. -/
def Listed (idx : IVec (⟨3, ![512, 128, 4]⟩ : Shape) 32) (b : Fin 512) (s : Fin 128) (v : Fin 1024) : Prop :=
  ∃ h : Fin 4, idx (ix3 b s h) = BitVec.ofNat 32 v.val

open Classical in
/-- THE RESULT: `1 - y[b, v]` at the listed positions, `y[b, v]` elsewhere. -/
def flipped (y : (⟨2, ![512, 1024]⟩ : Shape).Idx → EReal) (idx : IVec (⟨3, ![512, 128, 4]⟩ : Shape) 32) :
    (⟨3, ![512, 128, 1024]⟩ : Shape).Idx → EReal := fun i =>
  if Listed idx (i 0) (i 1) (i 2) then Ideal.ofBits .f32 0x3F800000#32 - y (ix2 (i 0) (i 2)) else y (ix2 (i 0) (i 2))

/-- At a listed position the indicator is one: `y + (1 - 2 y) * 1 = 1 - y` for a real `y`. -/
theorem listed_law (r : ℝ) :
    (r : EReal) + (Ideal.ofBits .f32 0x3F800000#32 - Ideal.ofBits .f32 0x40000000#32 * (r : EReal))
        * Ideal.ofBits .f32 0x3F800000#32
      = Ideal.ofBits .f32 0x3F800000#32 - (r : EReal) := by
  rw [one_f32, two_f32, ← EReal.coe_mul, ← EReal.coe_sub, ← EReal.coe_mul, ← EReal.coe_add, ← EReal.coe_sub]
  congr 1; ring

/-- At an unlisted position the indicator is zero: `y + (1 - 2 y) * 0 = y`. -/
theorem unlisted_law (r : ℝ) :
    (r : EReal) + (Ideal.ofBits .f32 0x3F800000#32 - Ideal.ofBits .f32 0x40000000#32 * (r : EReal))
        * Ideal.ofBits .f32 0x00000000#32
      = (r : EReal) := by
  rw [Ideal.ofBits_zero_f32, mul_zero, add_zero]

end Cert.Flip

end
-- ==== Proof.KernelValue.lean ====
/-
  The kernel's result array is the specification.

  The kernel walks the 512 rows in 32 blocks of 16. At a point it holds the block of the TRANSPOSED index
  array — `idxT[b, h, s] = idx[b, s, h]`, made by the host before the kernel runs — and the block of `y`; for
  each hop `h` it compares the hop's word of sample `q` of row `p` with the position `v`, ORs the four
  comparisons, and selects `1 - y[p, v]` where the OR is set and `y[p, v]` where it is not. So what the point
  writes is the block of the specification at rows `16 t + p`, and the 32 row blocks cover the array.
-/
import proofs.«425799_j81174881894713_3_alg».proof.Proof.Gen.KernelIdeal.Value
import proofs.«425799_j81174881894713_3_alg».proof.Proof.Spec
import Idealize.ShloMosaic.Lib.Pipeline.Value
import Idealize.ShloMosaic.Lib.ValueIdx
import Idealize.ShloMosaic.Lib.ValueLayout
import Idealize.ShloMosaic.Lib.Affine
import Idealize.ShloMosaic.Lib.StableHlo.Run

noncomputable section

open Idealize.ShloMosaic Idealize.ShloMosaic.ValueIdx

namespace Cert.Flip.Kernel

open Cert.KernelIdeal Cert.KernelIdeal.Gen

/-- One hop's comparison at `(p, q, v)`: the hop's word for sample `q` of row `p` against the position `v`. -/
theorem hop_apply (w : IVec S16x1x128 32) (p : Fin 16) (q : Fin 128) (v : Fin 1024) :
    cmpi .eq
        (broadcastTo S16x128x1024 (shapeCast S16x128x1 (shapeCast S16x128 w shapeCasts_S16x1x128_S16x128)
          shapeCasts_S16x128_S16x128x1) broadcasts_S16x128x1_S16x128x1024)
        (broadcastTo S16x128x1024 (iota .tc S1x1x1024 32 [2] iota_S1x1x1024_d2_w32) broadcasts_S1x1x1024_S16x128x1024)
        (ix3 p q v)
      = IntOp.cmpi .eq (w (ix3 p (0 : Fin 1) q)) (BitVec.ofNat 32 v.val) := by
  show IntOp.cmpi .eq _ _ = _
  rw [broadcastTo_apply _ broadcasts_S16x128x1_S16x128x1024 (ix3 p q v) (ix3 p q (0 : Fin 1)) (fun a => match a with
      | ⟨0, _⟩ => by show p.val = if (16 : Nat) = 1 then 0 else p.val; rw [if_neg (by decide)]
      | ⟨1, _⟩ => by show q.val = if (128 : Nat) = 1 then 0 else q.val; rw [if_neg (by decide)]
      | ⟨2, _⟩ => by show 0 = if (1 : Nat) = 1 then 0 else v.val; rw [if_pos rfl]),
    shapeCast_apply _ shapeCasts_S16x128_S16x128x1 (ix3 p q (0 : Fin 1)) (ix2 p q) (by
      rw [Shape.rowMajor_val_two, Shape.rowMajor_val_three]
      show p.val * 128 + q.val = (p.val * 128 + q.val) * 1 + 0; omega),
    shapeCast_apply _ shapeCasts_S16x1x128_S16x128 (ix2 p q) (ix3 p (0 : Fin 1) q) (by
      rw [Shape.rowMajor_val_two, Shape.rowMajor_val_three]
      show (p.val * 1 + 0) * 128 + q.val = p.val * 128 + q.val; omega),
    broadcastTo_apply _ broadcasts_S1x1x1024_S16x128x1024 (ix3 p q v) (ix3 (0 : Fin 1) (0 : Fin 1) v) (fun a => match a with
      | ⟨0, _⟩ => by show 0 = if (1 : Nat) = 1 then 0 else p.val; rw [if_pos rfl]
      | ⟨1, _⟩ => by show 0 = if (1 : Nat) = 1 then 0 else q.val; rw [if_pos rfl]
      | ⟨2, _⟩ => by show v.val = if (1024 : Nat) = 1 then 0 else v.val; rw [if_neg (by decide)]),
    iota_single_apply]

/-- A table of 16 rows laid along the sample axis reads, at `(p, q, v)`, the table at `(p, v)`. -/
theorem rows_apply (u : FVec Ideal S16x1024 .f32) (p : Fin 16) (q : Fin 128) (v : Fin 1024) :
    broadcastTo S16x128x1024 (shapeCast S16x1x1024 (shapeCast S16x1x1024 u shapeCasts_S16x1024_S16x1x1024)
      shapeCasts_S16x1x1024_S16x1x1024) broadcasts_S16x1x1024_S16x128x1024 (ix3 p q v) = u (ix2 p v) := by
  rw [broadcastTo_apply _ broadcasts_S16x1x1024_S16x128x1024 (ix3 p q v) (ix3 p (0 : Fin 1) v) (fun a => match a with
      | ⟨0, _⟩ => by show p.val = if (16 : Nat) = 1 then 0 else p.val; rw [if_neg (by decide)]
      | ⟨1, _⟩ => by show 0 = if (1 : Nat) = 1 then 0 else q.val; rw [if_pos rfl]
      | ⟨2, _⟩ => by show v.val = if (1024 : Nat) = 1 then 0 else v.val; rw [if_neg (by decide)]),
    shapeCast_self,
    shapeCast_apply _ shapeCasts_S16x1024_S16x1x1024 (ix3 p (0 : Fin 1) v) (ix2 p v) (by
      rw [Shape.rowMajor_val_two, Shape.rowMajor_val_three]
      show p.val * 1024 + v.val = (p.val * 1 + 0) * 1024 + v.val; omega)]

/-- The hop-`h` load of the index block reads, at `(p, 0, q)`, the block at `(p, h, q)`. -/
theorem ld_hop0 (x0 : Vec Ideal S16x4x128 .i32) (p : Fin 16) (q : Fin 128) :
    View.ld x0 r0_0 (ix3 p (0 : Fin 1) q) = x0 (ix3 p (0 : Fin 4) q) :=
  congrArg x0 (funext fun a => Fin.ext (match a with | ⟨0, _⟩ => by show 0 + 1 * p.val = p.val; omega | ⟨1, _⟩ => rfl | ⟨2, _⟩ => by show 0 + 1 * q.val = q.val; omega))
theorem ld_hop1 (x0 : Vec Ideal S16x4x128 .i32) (p : Fin 16) (q : Fin 128) :
    View.ld x0 r0_1 (ix3 p (0 : Fin 1) q) = x0 (ix3 p (1 : Fin 4) q) :=
  congrArg x0 (funext fun a => Fin.ext (match a with | ⟨0, _⟩ => by show 0 + 1 * p.val = p.val; omega | ⟨1, _⟩ => rfl | ⟨2, _⟩ => by show 0 + 1 * q.val = q.val; omega))
theorem ld_hop2 (x0 : Vec Ideal S16x4x128 .i32) (p : Fin 16) (q : Fin 128) :
    View.ld x0 r0_2 (ix3 p (0 : Fin 1) q) = x0 (ix3 p (2 : Fin 4) q) :=
  congrArg x0 (funext fun a => Fin.ext (match a with | ⟨0, _⟩ => by show 0 + 1 * p.val = p.val; omega | ⟨1, _⟩ => rfl | ⟨2, _⟩ => by show 0 + 1 * q.val = q.val; omega))
theorem ld_hop3 (x0 : Vec Ideal S16x4x128 .i32) (p : Fin 16) (q : Fin 128) :
    View.ld x0 r0_3 (ix3 p (0 : Fin 1) q) = x0 (ix3 p (3 : Fin 4) q) :=
  congrArg x0 (funext fun a => Fin.ext (match a with | ⟨0, _⟩ => by show 0 + 1 * p.val = p.val; omega | ⟨1, _⟩ => rfl | ⟨2, _⟩ => by show 0 + 1 * q.val = q.val; omega))

/-- The load of the whole table block reads, at `(p, v)`, the block at `(p, v)`. -/
theorem ld_tab (x1 : Vec Ideal S16x1024 .f32) (p : Fin 16) (v : Fin 1024) :
    View.ld x1 r0_4 (ix2 p v) = x1 (ix2 p v) :=
  congrArg x1 (funext fun a => Fin.ext (match a with | ⟨0, _⟩ => by show 0 + 1 * p.val = p.val; omega | ⟨1, _⟩ => by show 0 + 1 * v.val = v.val; omega))

theorem hz2 : (![0, 0] : Fin 2 → Nat) = fun _ => 0 := funext fun a => by fin_cases a <;> rfl
theorem hz3 : (![0, 0, 0] : Fin 3 → Nat) = fun _ => 0 := funext fun a => by fin_cases a <;> rfl

/-- The OR of four equality tests is set exactly when one of the four words is the target. -/
theorem mask_iff (w0 w1 w2 w3 t : BitVec 32) :
    IntOp.ori (IntOp.ori (IntOp.ori (IntOp.cmpi .eq w0 t) (IntOp.cmpi .eq w1 t)) (IntOp.cmpi .eq w2 t)) (IntOp.cmpi .eq w3 t) = 1#1
      ↔ ((w0 = t ∨ w1 = t) ∨ w2 = t) ∨ w3 = t := by
  simp only [IntOp.ori_eq_one, IntOp.cmpi_eq]

/-- One of four words, listed by hop, is the target. -/
theorem exists_hop (f : Fin 4 → BitVec 32) (t : BitVec 32) :
    (∃ h : Fin 4, f h = t) ↔ ((f 0 = t ∨ f 1 = t) ∨ f 2 = t) ∨ f 3 = t := by
  constructor
  · rintro ⟨h, hh⟩
    fin_cases h
    · exact Or.inl (Or.inl (Or.inl hh))
    · exact Or.inl (Or.inl (Or.inr hh))
    · exact Or.inl (Or.inr hh)
    · exact Or.inr hh
  · rintro (((h | h) | h) | h)
    exacts [⟨0, h⟩, ⟨1, h⟩, ⟨2, h⟩, ⟨3, h⟩]

open Classical in
/-- THE BODY'S RESULT AT `(p, q, v)`: `1 - y` if one of the four hop words of `(p, q)` is `v`, else `y`,
    `y` the table block's entry `(p, v)`. -/
theorem pay_apply (x0 : Vec Ideal S16x4x128 .i32) (x1 : Vec Ideal S16x1024 .f32) (p : Fin 16) (q : Fin 128) (v : Fin 1024) :
    k0_pay1 (F := Ideal) (View.ld x0 r0_0) (View.ld x0 r0_1) (View.ld x0 r0_2) (View.ld x0 r0_3) (View.ld x1 r0_4) (ix3 p q v)
      = if (∃ h : Fin 4, x0 (ix3 p h q) = BitVec.ofNat 32 v.val) then Ideal.ofBits .f32 0x3F800000#32 - x1 (ix2 p v)
        else x1 (ix2 p v) := by
  unfold k0_pay1
  dsimp only
  rw [select_apply]
  show Scalar.select (IntOp.ori (IntOp.ori (IntOp.ori (cmpi .eq _ _ (ix3 p q v)) (cmpi .eq _ _ (ix3 p q v)))
    (cmpi .eq _ _ (ix3 p q v))) (cmpi .eq _ _ (ix3 p q v))) _ _ = _
  rw [hop_apply, hop_apply, hop_apply, hop_apply, rows_apply, rows_apply, ld_hop0, ld_hop1, ld_hop2, ld_hop3]
  show Scalar.select _ (FloatOps.subf (F := Ideal) (φ := .f32) (FloatOps.ofBits (F := Ideal) .f32 0x3F800000#32)
    (View.ld x1 r0_4 (ix2 p v))) (View.ld x1 r0_4 (ix2 p v)) = _
  rw [ld_tab]
  have hm := mask_iff (x0 (ix3 p (0 : Fin 4) q)) (x0 (ix3 p (1 : Fin 4) q)) (x0 (ix3 p (2 : Fin 4) q))
    (x0 (ix3 p (3 : Fin 4) q)) (BitVec.ofNat 32 v.val)
  have he := exists_hop (fun h : Fin 4 => x0 (ix3 p h q)) (BitVec.ofNat 32 v.val)
  by_cases hl : ∃ h : Fin 4, x0 (ix3 p h q) = BitVec.ofNat 32 v.val
  · rw [if_pos hl]
    exact if_pos (hm.2 (he.1 hl))
  · rw [if_neg hl]
    exact if_neg (fun hc => hl (he.2 (hm.1 hc)))

/-! ## The blocks, the cover, the run -/

open Idealize.ShloMosaic.TcCoe Idealize.SL.Sem
open Idealize.ShloMosaic.Pipeline (Dat)

variable (m : (ℓ : Loc nD τ sig) → Buf (Elt Ideal) ℓ) (ρ : Dev nD → PrngReg)

/-- The table `y` and the listed positions, as launched. -/
abbrev yArr (c : Dev nD) : FVec Ideal S512x1024 .f32 := m ((c : Thread nD τ).loc main_arg3)
abbrev idxArr (c : Dev nD) : IVec S512x128x4 32 := m ((c : Thread nD τ).loc main_arg4)

/-- The two input blocks at a point, at their literal types. -/
abbrev idxBlk (c : Dev nD) (t : Fin cfg0.N) : Vec Ideal S16x4x128 .i32 := iblk m c 0 t
abbrev yBlk (c : Dev nD) (t : Fin cfg0.N) : Vec Ideal S16x1024 .f32 := iblk m c 1 t

/-- The printed index maps, decided over the 32 points: every window's block index is `(t, 0, …)`. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ t.val < 32 :=
  (by decide +kernel : ∀ t : Fin grid0.N, _)

/-- Row `p` of point `t`'s block is row `16 t + p` of the array. -/
def row (t : Fin cfg0.N) (p : Fin 16) : Fin 512 :=
  ⟨t.val * 16 + p.val, by have := (idx_facts t).2.2.2.2.2.2.2.2; have := p.isLt; omega⟩

/-- The index array as the kernel finds it: the host's transpose of the listed positions. -/
theorem V_idxT (c : Dev nD) :
    (V m c main_v0 : S512x4x128.Idx → BitVec 32)
      = transpose S512x4x128 [0, 2, 1] (idxArr m c) transposes_S512x128x4_S512x4x128_0_2_1 := by
  dsimp only [Gen.V, Gen.hostOps0]
  after_results

/-- Entry `(p, h, q)` of the index block at point `t` is the listed position `idx[16 t + p, q, h]`. -/
theorem idxBlk_read (c : Dev nD) (t : Fin cfg0.N) (p : Fin 16) (h : Fin 4) (q : Fin 128) :
    idxBlk m c t (ix3 p h q) = idxArr m c (ix3 (row t p) q h) := by
  obtain ⟨e0, e1, e2, -⟩ := idx_facts t
  have hemb : ((cfg0.win 0).blk t).view.emb (ix3 p h q) = ix3 (row t p) h q := by
    funext a; apply Fin.ext
    match a with
    | ⟨0, _⟩ => show win0_0.index t (0 : Fin 3) * 16 + 1 * p.val = t.val * 16 + p.val; omega
    | ⟨1, _⟩ => show win0_0.index t (1 : Fin 3) * 4 + 1 * h.val = h.val; omega
    | ⟨2, _⟩ => show win0_0.index t (2 : Fin 3) * 128 + 1 * q.val = q.val; omega
  show V m c main_v0 (((cfg0.win 0).blk t).view.emb (ix3 p h q)) = _
  rw [hemb, V_idxT m c]
  exact transpose_ix3_021_apply _ _ (row t p) h q

/-- Entry `(p, v)` of the table block at point `t` is `y[16 t + p, v]`. -/
theorem yBlk_read (c : Dev nD) (t : Fin cfg0.N) (p : Fin 16) (v : Fin 1024) :
    yBlk m c t (ix2 p v) = yArr m c (ix2 (row t p) v) := by
  obtain ⟨-, -, -, e0, e1, -⟩ := idx_facts t
  have hemb : ((cfg0.win 1).blk t).view.emb (ix2 p v) = ix2 (row t p) v := by
    funext a; apply Fin.ext
    match a with
    | ⟨0, _⟩ => show win0_1.index t (0 : Fin 2) * 16 + 1 * p.val = t.val * 16 + p.val; omega
    | ⟨1, _⟩ => show win0_1.index t (1 : Fin 2) * 1024 + 1 * v.val = v.val; omega
  show V m c main_arg3 (((cfg0.win 1).blk t).view.emb (ix2 p v)) = _
  rw [hemb, V_main_arg3 m c]

open Classical in
/-- WHAT POINT `t` WRITES BACK is block `t` of the specification. -/
theorem flushed_eq (c : Dev nD) (t : Fin cfg0.N) :
    (dats m 0 c).flushed 2 t
      = ((cfg0.win 2).blk t).view.read (Elt Ideal) (Cert.Flip.flipped (yArr m c) (idxArr m c)) := by
  rw [Cert.KernelIdeal.Value.flushed2]
  unfold out0_2
  rw [View.canon_unit_zero hz3]
  funext j
  obtain ⟨p, q, v, rfl⟩ : ∃ (p : Fin 16) (q : Fin 128) (v : Fin 1024), j = ix3 p q v := ⟨j 0, j 1, j 2, eq_ix3 j⟩
  obtain ⟨-, -, -, -, -, e0, e1, e2, -⟩ := idx_facts t
  have hemb : ((cfg0.win 2).blk t).view.emb (ix3 p q v) = ix3 (row t p) q v := by
    funext a; apply Fin.ext
    match a with
    | ⟨0, _⟩ => show win0_2.index t (0 : Fin 3) * 16 + 1 * p.val = t.val * 16 + p.val; omega
    | ⟨1, _⟩ => show win0_2.index t (1 : Fin 3) * 128 + 1 * q.val = q.val; omega
    | ⟨2, _⟩ => show win0_2.index t (2 : Fin 3) * 1024 + 1 * v.val = v.val; omega
  show k0_pay1 (F := Ideal) (View.ld (idxBlk m c t) r0_0) (View.ld (idxBlk m c t) r0_1) (View.ld (idxBlk m c t) r0_2)
      (View.ld (idxBlk m c t) r0_3) (View.ld (yBlk m c t) r0_4) (ix3 p q v)
    = Cert.Flip.flipped (yArr m c) (idxArr m c) (((cfg0.win 2).blk t).view.emb (ix3 p q v))
  rw [pay_apply (idxBlk m c t) (yBlk m c t) p q v, hemb, yBlk_read m c t p v]
  simp only [idxBlk_read m c t p _ q]
  show _ = (if Cert.Flip.Listed (idxArr m c) (row t p) q v
    then Ideal.ofBits .f32 0x3F800000#32 - yArr m c (ix2 (row t p) v) else yArr m c (ix2 (row t p) v))
  exact if_congr Iff.rfl rfl rfl

/-- An index of the array is in point `t`'s block iff each coordinate is in the block's range on its axis. -/
theorem mem_blk (t : Fin cfg0.N) (i : S512x128x1024.Idx) :
    i ∈ ((cfg0.win 2).blk t).view.set ↔ ∀ a : Fin 3, win0_2.index t a * S16x128x1024.size a ≤ (i a).val
      ∧ (i a).val < win0_2.index t a * S16x128x1024.size a + S16x128x1024.size a := by
  show i ∈ ((View.whole main_v1).slice (win0_2.rect t)).set ↔ _
  rw [View.set_slice_whole, Rect.mem_set_unit]
  exact Iff.rfl

/-- THE COVER: row `r` of the array lies in the block of point `r / 16`. -/
theorem cover (i : S512x128x1024.Idx) :
    ∃ t : Fin cfg0.N, (cfg0.win 2).flush t = true ∧ i ∈ ((cfg0.win 2).blk t).view.set := by
  have h0 : (i 0).val < 512 := (i 0).isLt
  have h1 : (i 1).val < 128 := (i 1).isLt
  have h2 : (i 2).val < 1024 := (i 2).isLt
  refine ⟨⟨(i 0).val / 16, by rw [show cfg0.N = 32 from N_0]; omega⟩, flush0_2 _, ?_⟩
  rw [mem_blk]
  obtain ⟨-, -, -, -, -, e0, e1, e2, -⟩ := idx_facts ⟨(i 0).val / 16, by rw [show cfg0.N = 32 from N_0]; omega⟩
  intro a
  match a with
  | ⟨0, _⟩ =>
    show win0_2.index _ (0 : Fin 3) * 16 ≤ (i 0).val ∧ (i 0).val < win0_2.index _ (0 : Fin 3) * 16 + 16
    rw [e0]; show (i 0).val / 16 * 16 ≤ (i 0).val ∧ (i 0).val < (i 0).val / 16 * 16 + 16; omega
  | ⟨1, _⟩ =>
    show win0_2.index _ (1 : Fin 3) * 128 ≤ (i 1).val ∧ (i 1).val < win0_2.index _ (1 : Fin 3) * 128 + 128
    rw [e1]; omega
  | ⟨2, _⟩ =>
    show win0_2.index _ (2 : Fin 3) * 1024 ≤ (i 2).val ∧ (i 2).val < win0_2.index _ (2 : Fin 3) * 1024 + 1024
    rw [e2]; omega

/-- THE ARRAY after the run is the specification of the arguments as launched. -/
theorem final (c : Dev nD) : (dats m 0 c).arrAt 2 cfg0.N = Cert.Flip.flipped (yArr m c) (idxArr m c) :=
  (dats m 0 c).arrAt_eq_of_cover 2 (Cert.Flip.flipped (yArr m c) (idxArr m c)) (fun t _ => flushed_eq m c t) cover

/-- The kernel's run with its result named: the specification of the arguments, the arguments unchanged. -/
theorem run : θ_run defs (onTc (τ := τ) (main (F := Ideal))) ⟨m, fun _ => 0, ρ⟩ fun r => ∀ c : Dev nD,
      r.2.mem ((c : Thread nD τ).loc main_v1) = Cert.Flip.flipped (yArr m c) (idxArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Flip.Kernel

end
-- ==== Proof.LibScatterSet.lean ====
/-
  A scatter whose body returns the update ("set") and whose updates are all one constant.

  The host's scatter is a fold over the update indices, in row-major order: each update that lands inside
  the operand replaces the element it lands on, and an update that lands outside is dropped. When the body
  returns the update and every update is the same constant `c`, the order of the fold does not matter and
  the result has a closed form, element by element:

    * at an element some update lands on, the result is `c`;
    * at an element no update lands on, the result is the operand's element (this half holds for any body
      and any updates).

  The second part reads "update `j` lands on element `i`" for the scatter of single elements into an array
  of rank three from a rank-four array of index vectors whose last axis holds the three coordinates
  (`x.at[i0, i1, i2].set(c)`): update `(p, q, r)` lands on `i` exactly when, read as signed integers, the
  three words at `(p, q, r, 0)`, `(p, q, r, 1)`, `(p, q, r, 2)` are the coordinates of `i`.
-/
import Idealize.ShloMosaic.PureOps
import Idealize.ShloMosaic.Lib.ValueIdx

noncomputable section

open Idealize.ShloMosaic Idealize.ShloMosaic.ValueIdx

namespace Cert.ScatterSet

variable {α : Type} {s si u : Shape} {w : Nat}

/-- One step of the scatter's fold: update number `n` (row-major) applied to the array so far. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of its steps over the update numbers in order. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i` leaves element `i` as it was. -/
theorem step_miss (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  cases hr : d.resultIdx? (u.rowMajor.symm n) idx with
  | none => rfl
  | some i0 =>
    have hne : i ≠ i0 := fun e => h (by rw [hr, e])
    simp only [if_neg hne]

/-- A "set" step whose update lands on `i` leaves the update there. -/
theorem step_hit (d : ScatterDims s si u) (idx : IVec si w) (upd : u.Idx → α)
    (r : s.Idx → α) (n : Fin u.numel) (i : s.Idx)
    (h : d.resultIdx? (u.rowMajor.symm n) idx = some i) :
    step d (fun _ b => b) idx upd r n i = upd (u.rowMajor.symm n) := by
  unfold step
  rw [h]
  simp only [if_pos]

/-- Folding steps none of which lands on `i` leaves element `i` as it was. -/
theorem foldl_miss (d : ScatterDims s si u) (f : α → α → α) (idx : IVec si w) (upd : u.Idx → α) (i : s.Idx) :
    ∀ (l : List (Fin u.numel)) (x : s.Idx → α),
      (∀ n ∈ l, d.resultIdx? (u.rowMajor.symm n) idx ≠ some i) → l.foldl (step d f idx upd) x i = x i
  | [], _, _ => rfl
  | n :: l, x, h => by
    rw [List.foldl_cons, foldl_miss d f idx upd i l _ (fun m hm => h m (List.mem_cons_of_mem _ hm))]
    exact step_miss d f idx upd x n i (h n (List.mem_cons_self ..))

/-- Folding "set" steps of one constant, one of which lands on `i`, leaves the constant there. -/
theorem foldl_hit (d : ScatterDims s si u) (idx : IVec si w) (upd : u.Idx → α) (c : α) (hupd : ∀ j, upd j = c)
    (i : s.Idx) :
    ∀ (l : List (Fin u.numel)) (x : s.Idx → α),
      (∃ n ∈ l, d.resultIdx? (u.rowMajor.symm n) idx = some i) → l.foldl (step d (fun _ b => b) idx upd) x i = c
  | [], _, h => by obtain ⟨n, hn, _⟩ := h; cases hn
  | n :: l, x, h => by
    rw [List.foldl_cons]
    by_cases hl : ∃ m ∈ l, d.resultIdx? (u.rowMajor.symm m) idx = some i
    · exact foldl_hit d idx upd c hupd i l _ hl
    · have hall : ∀ m ∈ l, d.resultIdx? (u.rowMajor.symm m) idx ≠ some i := fun m hm e => hl ⟨m, hm, e⟩
      rw [foldl_miss d _ idx upd i l _ hall]
      obtain ⟨m, hm, e⟩ := h
      rcases List.mem_cons.mp hm with rfl | hm'
      · rw [step_hit d idx upd x m i e, hupd]
      · exact absurd e (hall m hm')

/-- WHERE NO UPDATE LANDS the scatter keeps the operand's element. -/
theorem scatter_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [scatter_eq_foldl]
  exact foldl_miss d f idx upd i _ x (fun n _ => h _)

/-- WHERE SOME UPDATE LANDS a "set" scatter of one constant holds the constant. -/
theorem scatter_set_const_hit (d : ScatterDims s si u) (x : s.Idx → α) (idx : IVec si w)
    (upd : u.Idx → α) (c : α) (hupd : ∀ j, upd j = c) (i : s.Idx)
    (h : ∃ j : u.Idx, d.resultIdx? j idx = some i) :
    Host.scatter d (fun _ b => b) x idx upd i = c := by
  rw [scatter_eq_foldl]
  obtain ⟨j, hj⟩ := h
  exact foldl_hit d idx upd c hupd i _ x ⟨u.rowMajor j, List.mem_finRange _, by rw [Equiv.symm_apply_apply]; exact hj⟩

end Cert.ScatterSet

/-! ## Single elements scattered into a rank-three array -/

namespace Cert.ScatterSet

variable {A B C P Q R : Nat} {w : Nat}

/-- The index vector's component `a` for update `(p, q, r)`: the word at `(p, q, r, a)`. -/
abbrev compIdx (j : (⟨3, ![P, Q, R]⟩ : Shape).Idx) (a : Fin 3) : (⟨4, ![P, Q, R, 3]⟩ : Shape).Idx :=
  ix4 (j 0) (j 1) (j 2) a

/-- WHERE AN UPDATE LANDS, for the scatter of single elements (no window axes; the operand's three axes
    inserted and named, in order, by the three components of the index vector on the last axis): update `j`
    lands on `i` exactly when the three words of its index vector, read signed, are `i`'s coordinates. -/
theorem resultIdx?_eq_some_iff
    (d : ScatterDims (⟨3, ![A, B, C]⟩ : Shape) (⟨4, ![P, Q, R, 3]⟩ : Shape) (⟨3, ![P, Q, R]⟩ : Shape))
    (hw : d.updateWindowDims = []) (hi : d.insertedWindowDims = [0, 1, 2])
    (hs : d.scatterDimsToOperandDims = [0, 1, 2]) (hv : d.indexVectorDim = 3)
    (j : (⟨3, ![P, Q, R]⟩ : Shape).Idx) (idx : IVec (⟨4, ![P, Q, R, 3]⟩ : Shape) w)
    (i : (⟨3, ![A, B, C]⟩ : Shape).Idx) :
    d.resultIdx? j idx = some i ↔ ∀ a : Fin 3, (idx (compIdx j a)).toInt = ((i a).val : Int) := by
  obtain ⟨uw, iw, sd, iv, wf⟩ := d
  dsimp only at hw hi hs hv
  subst hw hi hs hv
  have hstart : ∀ a : Fin 3, ScatterDims.start ⟨[], [0, 1, 2], [0, 1, 2], 3, wf⟩ j idx a = (idx (compIdx j a)).toInt := by
    intro a
    match a with
    | ⟨0, _⟩ =>
      unfold ScatterDims.start
      split
      · refine congrArg (fun k => (idx k).toInt) ?_
        funext b; refine Fin.ext ?_
        match b with
        | ⟨0, _⟩ => rfl
        | ⟨1, _⟩ => rfl
        | ⟨2, _⟩ => rfl
        | ⟨3, _⟩ => rfl
      · next ha => exact absurd (show (0 : Fin 3) ∈ ([0, 1, 2] : List (Fin 3)) by decide) ha
    | ⟨1, _⟩ =>
      unfold ScatterDims.start
      split
      · refine congrArg (fun k => (idx k).toInt) ?_
        funext b; refine Fin.ext ?_
        match b with
        | ⟨0, _⟩ => rfl
        | ⟨1, _⟩ => rfl
        | ⟨2, _⟩ => rfl
        | ⟨3, _⟩ => rfl
      · next ha => exact absurd (show (1 : Fin 3) ∈ ([0, 1, 2] : List (Fin 3)) by decide) ha
    | ⟨2, _⟩ =>
      unfold ScatterDims.start
      split
      · refine congrArg (fun k => (idx k).toInt) ?_
        funext b; refine Fin.ext ?_
        match b with
        | ⟨0, _⟩ => rfl
        | ⟨1, _⟩ => rfl
        | ⟨2, _⟩ => rfl
        | ⟨3, _⟩ => rfl
      · next ha => exact absurd (show (2 : Fin 3) ∈ ([0, 1, 2] : List (Fin 3)) by decide) ha
  have hwin : ∀ a : Fin 3, ScatterDims.window ⟨[], [0, 1, 2], [0, 1, 2], 3, wf⟩ j a = 0 := by
    intro a
    unfold ScatterDims.window
    split
    · next ha => exact absurd (show a ∈ ([] : List (Fin 3)) from ha) List.not_mem_nil
    · rfl
  unfold ScatterDims.resultIdx?
  split
  · next hin =>
    constructor
    · intro e a
      have e' := congrArg Fin.val (congrFun (Option.some.inj e) a)
      have h0 := (hin a).1
      rw [hstart, hwin] at h0
      simp only [hstart, hwin] at e'
      omega
    · intro e
      refine congrArg some (funext fun a => Fin.ext ?_)
      show (ScatterDims.start ⟨[], [0, 1, 2], [0, 1, 2], 3, wf⟩ j idx a
        + ((ScatterDims.window ⟨[], [0, 1, 2], [0, 1, 2], 3, wf⟩ j a : Nat) : Int)).toNat = (i a).val
      rw [hstart, hwin, e a]
      omega
  · next hin =>
    constructor
    · intro e; cases e
    · intro e
      refine absurd (fun a => ?_) hin
      rw [hstart, hwin, e a]
      have hlt := (i a).isLt
      constructor <;> omega

end Cert.ScatterSet

end
-- ==== Proof.RefValue.lean ====
/-
  The reference's result is the specification.

  The reference builds the indicator `mag` of "listed" by scattering the constant one into an array of zeros:
  update `(b, s, h)` carries the index vector `(b, s, idx[b, s, h])` — each component first passed through the
  wrap-around `i < 0 ? i + extent : i`, which leaves a position that is not negative as it is. So update
  `(b, s, h)` lands on `(b, s, v)` exactly when `idx[b, s, h]` is the word `v`, and `mag[b, s, v]` is one where
  `v` is listed at `(b, s)` and zero elsewhere. The result `y + (1 - 2 y) * mag` is then the specification by the
  two laws of real numbers, `y` being real.
-/
import proofs.«425799_j81174881894713_3_alg».proof.Proof.Gen.ReferenceIdeal.Read
import proofs.«425799_j81174881894713_3_alg».proof.Proof.LibScatterSet
import proofs.«425799_j81174881894713_3_alg».proof.Proof.Spec
import Idealize.ShloMosaic.Lib.Pipeline.Value
import Idealize.ShloMosaic.Lib.ValueIdx
import Idealize.ShloMosaic.Lib.DynamicIndex
import Idealize.ShloMosaic.Lib.Affine

noncomputable section

open Idealize.ShloMosaic Idealize.ShloMosaic.ValueIdx

namespace Cert.Flip.Ref

open Cert.ReferenceIdeal Cert.ReferenceIdeal.Gen Cert.ReferenceIdeal.Read

/-- The wrap-around of a word that is not negative is the word. -/
theorem wrap_nonneg (x n : BitVec 32) (h : 0 ≤ x.toInt) :
    Scalar.select (IntOp.cmpi .slt x 0#32) (IntOp.addi x n) x = x := by
  have hn : ¬ IntOp.cmpi .slt x 0#32 = 1#1 := fun e => by
    have := IntOp.cmpi_slt.1 e
    simp at this
    omega
  exact if_neg hn

/-- The row coordinate of an update's index vector: the row number as a word. -/
theorem row_word (i : S512x1x1.Idx) : val_main_v9 (F := Ideal) i = BitVec.ofNat 32 (i 0).val := by
  rw [val_main_v9_apply, val_main_v6_apply, val_main_v8_apply, val_main_v5_apply, val_main_c_apply,
    val_main_v1_apply, val_main_v0_apply]
  refine wrap_nonneg _ _ ?_
  rw [toInt_ofNat_of_lt (by have := (i 0).isLt; show (i 0).val < 2 ^ 31; have e : S512x1x1.size 0 = 512 := rfl; omega)]
  omega

/-- The sample coordinate of an update's index vector: the sample number as a word. -/
theorem sample_word (i : S1x128x1.Idx) : val_main_v14 (F := Ideal) i = BitVec.ofNat 32 (i 1).val := by
  rw [val_main_v14_apply, val_main_v11_apply, val_main_v13_apply, val_main_v10_apply, val_main_c_1_apply,
    val_main_v3_apply, val_main_v2_apply]
  refine wrap_nonneg _ _ ?_
  rw [toInt_ofNat_of_lt (by have := (i 1).isLt; show (i 1).val < 2 ^ 31; have e : S1x128x1.size 1 = 128 := rfl; omega)]
  omega

/-- The position coordinate: the listed position itself, when it is not negative. -/
theorem position_word (idx : IVec S512x128x4 32) (hidx : ∀ j, 0 ≤ (idx j).toInt) (i : S512x128x4.Idx) :
    val_main_v19 (F := Ideal) idx i = idx i := by
  rw [val_main_v19_apply, val_main_v16_apply, val_main_v18_apply, val_main_v15_apply, val_main_c_3_apply]
  exact wrap_nonneg _ _ (hidx i)

/-- Off the joined axis, an index of a piece and of the whole have the same coordinates. -/
theorem off_axis (b : Fin 512) (s : Fin 128) (h : Fin 4) (a : Fin 3) :
    ∀ b' : Fin S512x128x4x1.rank, b'.cast (rfl : S512x128x4x1.rank = S512x128x4x3.rank) ≠ (3 : Fin 4) →
      ((ix4 b s h (0 : Fin 1) : S512x128x4x1.Idx) b').val = ((ix4 b s h a : S512x128x4x3.Idx) (b'.cast rfl)).val := by
  intro b' hb'
  match b' with
  | ⟨0, _⟩ => rfl
  | ⟨1, _⟩ => rfl
  | ⟨2, _⟩ => rfl
  | ⟨3, _⟩ => exact absurd rfl hb'

/-- Component 0 of update `(b, s, h)`'s index vector is the row `b`. -/
theorem comp0 (idx : IVec S512x128x4 32) (b : Fin 512) (s : Fin 128) (h : Fin 4) :
    val_main_v25 (F := Ideal) idx (ix4 b s h (0 : Fin 3)) = BitVec.ofNat 32 b.val := by
  unfold val_main_v25
  refine (concatenate_apply_piece (3 : Fin 4) _ _ (ix4 b s h (0 : Fin 3)) 0 ?_ S512x128x4x1
    (val_main_v22 (F := Ideal)) ?_ rfl 0 ?_ (ix4 b s h (0 : Fin 1)) (off_axis b s h 0) ?_).trans ?_
  · show 0 < 3; decide
  · rfl
  · rfl
  · rfl
  rw [val_main_v22_apply, val_main_v20_apply, row_word]

/-- Component 1 is the sample `s`. -/
theorem comp1 (idx : IVec S512x128x4 32) (b : Fin 512) (s : Fin 128) (h : Fin 4) :
    val_main_v25 (F := Ideal) idx (ix4 b s h (1 : Fin 3)) = BitVec.ofNat 32 s.val := by
  unfold val_main_v25
  refine (concatenate_apply_piece (3 : Fin 4) _ _ (ix4 b s h (1 : Fin 3)) 1 ?_ S512x128x4x1
    (val_main_v23 (F := Ideal)) ?_ rfl 1 ?_ (ix4 b s h (0 : Fin 1)) (off_axis b s h 1) ?_).trans ?_
  · show 1 < 3; decide
  · rfl
  · rfl
  · rfl
  rw [val_main_v23_apply, val_main_v21_apply, sample_word]

/-- Component 2 is the listed position `idx[b, s, h]`, when no position is negative. -/
theorem comp2 (idx : IVec S512x128x4 32) (hidx : ∀ j, 0 ≤ (idx j).toInt) (b : Fin 512) (s : Fin 128) (h : Fin 4) :
    val_main_v25 (F := Ideal) idx (ix4 b s h (2 : Fin 3)) = idx (ix3 b s h) := by
  unfold val_main_v25
  refine (concatenate_apply_piece (3 : Fin 4) _ _ (ix4 b s h (2 : Fin 3)) 2 ?_ S512x128x4x1
    (val_main_v24 (F := Ideal) idx) ?_ rfl 2 ?_ (ix4 b s h (0 : Fin 1)) (off_axis b s h 2) ?_).trans ?_
  · show 2 < 3; decide
  · rfl
  · rfl
  · rfl
  rw [val_main_v24_apply, position_word idx hidx]
  refine congrArg idx ?_
  funext a
  match a with
  | ⟨0, _⟩ => rfl
  | ⟨1, _⟩ => rfl
  | ⟨2, _⟩ => rfl

/-- The reference's scatter dimension numbers: single elements into a rank-three array. -/
abbrev dims := scatter_S512x128x1024_S512x128x4x3_S512x128x4_n_012_012_3

/-- WHEN AN UPDATE LANDS: update `(b', s', h)` lands on `(b, s, v)` exactly when `b' = b`, `s' = s` and the listed
    position `idx[b', s', h]` is the word `v`. -/
theorem lands_iff (idx : IVec S512x128x4 32) (hidx : ∀ j, 0 ≤ (idx j).toInt)
    (b' : Fin 512) (s' : Fin 128) (h : Fin 4) (b : Fin 512) (s : Fin 128) (v : Fin 1024) :
    dims.resultIdx? (ix3 b' s' h) (val_main_v25 (F := Ideal) idx) = some (ix3 b s v)
      ↔ b' = b ∧ s' = s ∧ idx (ix3 b' s' h) = BitVec.ofNat 32 v.val := by
  rw [Cert.ScatterSet.resultIdx?_eq_some_iff dims rfl rfl rfl rfl]
  have hb : b'.val < 2 ^ 31 := by have := b'.isLt; omega
  have hs : s'.val < 2 ^ 31 := by have := s'.isLt; omega
  have hv : v.val < 2 ^ 31 := by have := v.isLt; omega
  constructor
  · intro H
    have h0 : (val_main_v25 (F := Ideal) idx (ix4 b' s' h (0 : Fin 3))).toInt = (b.val : Int) := H 0
    have h1 : (val_main_v25 (F := Ideal) idx (ix4 b' s' h (1 : Fin 3))).toInt = (s.val : Int) := H 1
    have h2 : (val_main_v25 (F := Ideal) idx (ix4 b' s' h (2 : Fin 3))).toInt = (v.val : Int) := H 2
    rw [comp0, toInt_ofNat_of_lt hb] at h0
    rw [comp1, toInt_ofNat_of_lt hs] at h1
    rw [comp2 idx hidx] at h2
    refine ⟨Fin.ext (by exact_mod_cast h0), Fin.ext (by exact_mod_cast h1), ?_⟩
    exact BitVec.eq_of_toInt_eq (h2.trans (toInt_ofNat_of_lt hv).symm)
  · rintro ⟨rfl, rfl, h2⟩ a
    match a with
    | ⟨0, _⟩ =>
      show (val_main_v25 (F := Ideal) idx (ix4 b' s' h (0 : Fin 3))).toInt = (b'.val : Int)
      rw [comp0, toInt_ofNat_of_lt hb]
    | ⟨1, _⟩ =>
      show (val_main_v25 (F := Ideal) idx (ix4 b' s' h (1 : Fin 3))).toInt = (s'.val : Int)
      rw [comp1, toInt_ofNat_of_lt hs]
    | ⟨2, _⟩ =>
      show (val_main_v25 (F := Ideal) idx (ix4 b' s' h (2 : Fin 3))).toInt = (v.val : Int)
      rw [comp2 idx hidx, h2, toInt_ofNat_of_lt hv]

/-- THE INDICATOR at a listed position is one. -/
theorem mag_listed (idx : IVec S512x128x4 32) (hidx : ∀ j, 0 ≤ (idx j).toInt) (b : Fin 512) (s : Fin 128) (v : Fin 1024)
    (hl : Cert.Flip.Listed idx b s v) :
    val_main_v27 (F := Ideal) idx (ix3 b s v) = Ideal.ofBits .f32 0x3F800000#32 := by
  unfold val_main_v27
  obtain ⟨h, hh⟩ := hl
  refine Cert.ScatterSet.scatter_set_const_hit dims _ _ _ (Ideal.ofBits .f32 0x3F800000#32) (fun j => ?_) (ix3 b s v)
    ⟨ix3 b s h, (lands_iff idx hidx b s h b s v).2 ⟨rfl, rfl, hh⟩⟩
  rw [val_main_v26_apply, val_main_cst_5_apply]
  rfl

/-- THE INDICATOR at an unlisted position is zero. -/
theorem mag_unlisted (idx : IVec S512x128x4 32) (hidx : ∀ j, 0 ≤ (idx j).toInt) (b : Fin 512) (s : Fin 128) (v : Fin 1024)
    (hn : ¬ Cert.Flip.Listed idx b s v) :
    val_main_v27 (F := Ideal) idx (ix3 b s v) = Ideal.ofBits .f32 0x00000000#32 := by
  unfold val_main_v27
  rw [Cert.ScatterSet.scatter_miss dims _ _ _ _ (ix3 b s v) (fun j e => hn ?_)]
  · rw [val_main_v4_apply, val_main_cst_apply]
    rfl
  · obtain ⟨b', s', h, rfl⟩ : ∃ (b' : Fin 512) (s' : Fin 128) (h : Fin 4), j = ix3 b' s' h := ⟨j 0, j 1, j 2, eq_ix3 j⟩
    obtain ⟨rfl, rfl, h2⟩ := (lands_iff idx hidx b' s' h b s v).1 e
    exact ⟨h, h2⟩

open Classical in
/-- THE REFERENCE'S RESULT is the specification, for a real `y` and positions that are not negative. -/
theorem result_eq (y : FVec Ideal S512x1024 .f32) (idx : IVec S512x128x4 32)
    (hy : ∀ j, ∃ r : ℝ, y j = (r : EReal)) (hidx : ∀ j, 0 ≤ (idx j).toInt) :
    val_main_v36 (F := Ideal) y idx = Cert.Flip.flipped y idx := by
  funext i
  obtain ⟨b, s, v, rfl⟩ : ∃ (b : Fin 512) (s : Fin 128) (v : Fin 1024), i = ix3 b s v := ⟨i 0, i 1, i 2, eq_ix3 i⟩
  rw [val_main_v36_apply, val_main_v35_apply, val_main_v28_apply, val_main_v34_apply, val_main_v33_apply,
    val_main_v32_apply, val_main_v31_apply, val_main_cst_7_apply, val_main_v30_apply, val_main_v29_apply,
    val_main_cst_6_apply, val_main_v28_apply]
  have ei : idx_main_v28 (idx_main_v35 (ix3 b s v)) = ix2 b v :=
    funext fun a => match a with | ⟨0, _⟩ => rfl | ⟨1, _⟩ => rfl
  rw [ei]
  obtain ⟨r, hr⟩ := hy (ix2 b v)
  show _ = (if Cert.Flip.Listed idx b s v then Ideal.ofBits .f32 0x3F800000#32 - y (ix2 b v) else y (ix2 b v))
  by_cases hl : Cert.Flip.Listed idx b s v
  · rw [if_pos hl, mag_listed idx hidx b s v hl, hr]
    exact Cert.Flip.listed_law r
  · rw [if_neg hl, mag_unlisted idx hidx b s v hl, hr]
    exact Cert.Flip.unlisted_law r

end Cert.Flip.Ref

end
-- ==== Proof.PreDecode.lean ====
/-
  What the precondition says, element by element.

  The precondition is one boolean: the conjunction of "every entry is finite" for each of the four float
  inputs — `|x| < +inf` at every entry — and "every listed position is in `[0, 1024)`" for the integer
  input. Read back: every entry of `y` is a real number (neither infinity), and every listed position, read
  as a signed integer, is not negative.
-/
import proofs.«425799_j81174881894713_3_alg».proof.Pre_finite_inputs
import proofs.«425799_j81174881894713_3_alg».proof.Proof.Gen.Pre_finite_inputs
import Idealize.ShloMosaic.Lib.ReduceAll
import Idealize.ShloMosaic.Lib.ValueIdx
import Idealize.ShloMosaic.PureOps.Ideal

noncomputable section

open Idealize.ShloMosaic

namespace Cert.Flip.Pre

open Cert.Pre_finite_inputs Cert.Pre_finite_inputs.Gen

/-- A shape of rank zero has one index. -/
instance : Subsingleton S_.Idx := ⟨fun a b => funext fun d => d.elim0⟩

/-- The pattern the precondition compares against denotes `+inf`. -/
theorem inf_f32 : Ideal.ofBits .f32 0x7F800000#32 = ⊤ := by simp [Ideal.ofBits, Ideal.ieee]

/-- A boolean as a one-bit word is one exactly when it is true. -/
theorem ofBool_one (b : Bool) : BitVec.ofBool b = 1#1 ↔ b = true := by cases b <;> decide

/-- An extended real whose absolute value is below `+inf` is a real number. -/
theorem real_of_abs_lt_top (x : EReal) (h : Ideal.cmp .olt (max x (-x)) ⊤ = 1#1) : ∃ r : ℝ, x = (r : EReal) := by
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨r, rfl⟩

/-- THE PRECONDITION READ BACK: every entry of `y` is real, and no listed position is negative. -/
theorem decode (a0 : FVec Ideal S512x64x1024 .f32) (a1 : FVec Ideal S512x64 .f32) (a2 : FVec Ideal S512x1024 .f32)
    (y : FVec Ideal S512x1024 .f32) (idx : IVec S512x128x4 32)
    (h : fn (F := Ideal) a0 a1 a2 y idx = fun _ => 1#1) :
    (∀ j, ∃ r : ℝ, y j = (r : EReal)) ∧ (∀ j, 0 ≤ (idx j).toInt) := by
  have e := congrFun h ValueIdx.ix0
  dsimp only [fn, fn_part1] at e
  obtain ⟨e1, eI⟩ := IntOp.andi_eq_one.1 e
  obtain ⟨-, eY⟩ := IntOp.andi_eq_one.1 e1
  constructor
  · intro j
    have hj := Host.reduce_andi_all _ _ _ _ _ eY j
    refine real_of_abs_lt_top (y j) ?_
    rw [← inf_f32]
    exact hj
  · intro j
    have hj := Host.reduce_andi_all _ _ _ _ _ eI j
    obtain ⟨hge, -⟩ := IntOp.andi_eq_one.1 hj
    have h0 : (0#32 : BitVec 32).toInt ≤ (idx j).toInt := IntOp.cmpi_sge.1 hge
    simpa using h0

end Cert.Flip.Pre

end
-- ==== Proof.lean ====
/-
  A table flipped at listed positions: the kernel and its reference compute one function.

  Inputs: a table `y` of 512 rows of 1024 numbers and, for each row `b` and each of 128 samples `s`, four listed
  positions `idx[b, s, 0..3]` (three further float inputs take no part). The result at `(b, s, v)` is `1 - y[b, v]`
  where `v` is one of the four positions listed at `(b, s)`, and `y[b, v]` where it is not.

  The kernel compares each hop's word with the position, ORs the four comparisons and selects between `1 - y` and
  `y`. The reference scatters ones into an array of zeros at `(b, s, idx[b, s, h])` and returns
  `y + (1 - 2 y) * mag`. The two agree when every entry of `y` is a real number (so that `(1 - 2 y) * 0 = 0` and
  `y + (1 - 2 y) = 1 - y`) and no listed position is negative (a negative position is wrapped around by the
  reference's indexing and matches nothing in the kernel); both are read off the precondition.

  The three frames are the generated ones — the reference's is its generated run with the result dropped — and the
  kernel has no rewritten operation, so its idealization preserves it trivially.
-/
import proofs.«425799_j81174881894713_3_alg».proof.Defs
import proofs.«425799_j81174881894713_3_alg».proof.Proof.Gen.Kernel
import proofs.«425799_j81174881894713_3_alg».proof.Proof.Gen.Kernel.Skeleton
import proofs.«425799_j81174881894713_3_alg».proof.Proof.Gen.Kernel.Launch
import proofs.«425799_j81174881894713_3_alg».proof.Proof.Gen.Kernel.Points
import proofs.«425799_j81174881894713_3_alg».proof.Proof.Gen.Kernel.Frame
import proofs.«425799_j81174881894713_3_alg».proof.Proof.Gen.KernelIdeal
import proofs.«425799_j81174881894713_3_alg».proof.Proof.Gen.KernelIdeal.Skeleton
import proofs.«425799_j81174881894713_3_alg».proof.Proof.Gen.KernelIdeal.Launch
import proofs.«425799_j81174881894713_3_alg».proof.Proof.Gen.KernelIdeal.Points
import proofs.«425799_j81174881894713_3_alg».proof.Proof.Gen.KernelIdeal.Frame
import proofs.«425799_j81174881894713_3_alg».proof.Proof.Gen.ReferenceIdeal
import proofs.«425799_j81174881894713_3_alg».proof.Proof.Gen.Pre_finite_inputs
import proofs.«425799_j81174881894713_3_alg».proof.Proof.Gen.KernelIdeal.Value
import proofs.«425799_j81174881894713_3_alg».proof.Proof.Gen.ReferenceIdeal.Run
import proofs.«425799_j81174881894713_3_alg».proof.Proof.Gen.ReferenceIdeal.Read
import proofs.«425799_j81174881894713_3_alg».proof.Proof.KernelValue
import proofs.«425799_j81174881894713_3_alg».proof.Proof.RefValue
import proofs.«425799_j81174881894713_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the flipped table: the kernel's result
    array read block by block, the reference's last stage read index by index, under the precondition's two facts. -/
theorem algebraic : Cert.algebraic_KernelIdeal_ReferenceIdeal := by
  intro m ρ m' ρ' hpre hagree
  refine ⟨fun c => Cert.Flip.flipped (Cert.Flip.Kernel.yArr m c) (Cert.Flip.Kernel.idxArr m c),
    Cert.Flip.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hy, hidx⟩ := Cert.Flip.Pre.decode _ _ _ _ _ (hpre c)
  rw [Cert.ReferenceIdeal.Read.val_main_v36_eq, (hagree c).2.2.2.1, (hagree c).2.2.2.2]
  exact Cert.Flip.Ref.result_eq _ _ hy hidx

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
